-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S1600000 32) (main_arg2 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S10000x64 : Shape := ⟨2, ![10000, 64]⟩
abbrev S10000x1 : Shape := ⟨2, ![10000, 1]⟩

abbrev nBuf : Space → Nat
  | .hbm => 24
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x64, .f32⟩
  | .hbm, ⟨12, _⟩ => ⟨S_, .f32⟩
  | .hbm, ⟨13, _⟩ => ⟨S100000x64, .f32⟩
  | .hbm, ⟨14, _⟩ => ⟨S1600000x1, .i32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S10000x64, .f32⟩
  | .local _ .vmem, ⟨7, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 30
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x64, .f32⟩
  | .hbm, ⟨12, _⟩ => ⟨S_, .f32⟩
  | .hbm, ⟨13, _⟩ => ⟨S100000x64, .f32⟩
  | .hbm, ⟨14, _⟩ => ⟨S1600000x1, .i32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S100000x64, .f32⟩
  | .hbm, ⟨29, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.MeanAgg.lean ====
/-
  Mean aggregation over a graph with a residual: for node `p` and feature `q`

      out(p, q) = feat(p, q) + summed(p, q) / max(deg(p), 1)

  where `summed` is the sum of the neighbours' feature rows and `deg` the number of edges ending at `p`, the count
  floored at one so that an isolated node divides by one. Both programs compute `summed` and `deg` by the same
  gather and scatter-add; this file states only the dense last step, as one function of three arrays read index by
  index on the extended reals. The quotient is the ideal instance's division, the floor its maximum, and the
  constant one the value of the single-precision word 0x3F800000, which is never evaluated: the same word stands
  on both sides.
-/
import Idealize.ShloMosaic.PureOps.Ideal
import Idealize.ShloMosaic.Lib.ValueIdx

noncomputable section

namespace Cert.MeanAgg

open Idealize.ShloMosaic Idealize.ShloMosaic.ValueIdx

/-- One entry per node and feature. -/
abbrev NodeFeat : Shape := ⟨2, ![100000, 64]⟩
/-- One entry per node. -/
abbrev Node : Shape := ⟨1, ![100000]⟩

/-- The floor of the degree: the extended real the word of 1.0 denotes. -/
def one : EReal := Ideal.ofBits .f32 0x3F800000#32

/-- The residual plus the neighbour sum over the floored degree, at node `i 0` and feature `i 1`. -/
def meanAgg (feat summed : FVec Ideal NodeFeat .f32) (deg : FVec Ideal Node .f32) : FVec Ideal NodeFeat .f32 :=
  fun i => feat i + Ideal.div (summed i) (max (deg (ix1 (i 0))) one)

/-- The same entry with the floor's two arguments in the other order: the maximum is symmetric. -/
theorem meanAgg_apply_comm (feat summed : FVec Ideal NodeFeat .f32) (deg : FVec Ideal Node .f32) (i : NodeFeat.Idx) :
    meanAgg feat summed deg i = feat i + Ideal.div (summed i) (max one (deg (ix1 (i 0)))) := by
  unfold meanAgg
  rw [max_comm]

end Cert.MeanAgg

end
-- ==== Proof.RefSide.lean ====
/-
  The reference's result, read index by index: after the gather and the two scatter-adds (kept closed here: the
  kernel computes the very same two arrays) it floors the degree vector at one, lays it out as a column,
  repeats the column over the 64 features, divides the neighbour sums by it and adds the features. Reading each
  of those steps at an index `i` leaves `feat i + summed i / max(1, deg (i 0))`: the two layout steps only send
  `i` to its node `i 0`.
-/
import proofs.«138248_j79070347919847_1_alg».proof.Proof.Gen.ReferenceIdeal.Read
import proofs.«138248_j79070347919847_1_alg».proof.Proof.MeanAgg
import Idealize.ShloMosaic.Lib.ValueIdx

noncomputable section

namespace Cert.ReferenceIdeal.RefValue

open Cert.ReferenceIdeal Cert.ReferenceIdeal.Read Idealize.ShloMosaic Idealize.ShloMosaic.ValueIdx Cert.MeanAgg

/-- The column layout then the repetition over features read entry `i` of the result at node `i 0` of the vector. -/
theorem node_of (i : S100000x64.Idx) : idx_main_v15 (idx_main_v16 i) = ix1 (i 0) := by
  funext a
  match a with
  | ⟨0, _⟩ => rfl

/-- The reference's last stage is the mean aggregation of the features, the neighbour sums and the degrees. -/
theorem result_eq (x0 : (⟨S100000x64, .f32⟩ : BufTy).Contents (Elt Ideal)) (x1 x2 : (⟨S1600000, .i32⟩ : BufTy).Contents (Elt Ideal)) :
    val_main_v18 (F := Ideal) x0 x1 x2
      = meanAgg x0 (val_main_v9 (F := Ideal) x0 x1 x2) (val_main_v13 (F := Ideal) x1) := by
  funext i
  rw [meanAgg_apply_comm, val_main_v18_apply, val_main_v17_apply, val_main_v16_apply, val_main_v15_apply, val_main_v14_apply,
    val_main_call0_v1_apply, val_main_call0_v0_apply, val_main_cst_3_apply, node_of]
  rfl

end Cert.ReferenceIdeal.RefValue

end
-- ==== Proof.KernelSide.lean ====
/-
  The kernel's result array, as one function of the argument arrays.

  Before the region the host computes, by one gather and two scatter-adds, the neighbour sums `summed` (one row per
  node) and the degrees `degree` (one count per node), and lays the degrees out as a column. The region then runs ten
  grid points; point `t` reads rows 10000·t … 10000·t + 9999 of the features, of the neighbour sums and of the degree
  column, and writes the same rows of the result: entry (r, q) of its block is
  `feat + summed / max(deg, 1)` of the three blocks at (r, q), (r, q) and (r, 0).

  All four windows move together (block index `t` on the rows, 0 on the columns), so block `t` of the result is
  block `t` of the whole-array function, and the ten blocks tile the 100000 rows: row `r` lies in the block of
  point `r / 10000`. Hence the result array is the mean aggregation of the three arrays, index by index.
-/
import proofs.«138248_j79070347919847_1_alg».proof.Proof.Gen.KernelIdeal.Value
import proofs.«138248_j79070347919847_1_alg».proof.Proof.MeanAgg
import Idealize.ShloMosaic.Lib.Pipeline.Value
import Idealize.ShloMosaic.Lib.ValueIdx
import Idealize.ShloMosaic.Lib.StableHlo.Run

set_option maxRecDepth 16384

noncomputable section

namespace Cert.KernelIdeal.Agg

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.MeanAgg
open Idealize.ShloMosaic.Pipeline (Dat)

variable (m : (ℓ : Loc nD τ sig) → Buf (Elt Ideal) ℓ) (ρ : Dev nD → PrngReg)

/-! ## The arrays the host leaves for the region -/

/-- The neighbour sums: the feature rows gathered at the edges' source nodes (a negative node number counted from
    the end) and added into the row of each edge's target node, starting from zeros. -/
def summed (x0 : (⟨S100000x64, .f32⟩ : BufTy).Contents (Elt Ideal)) (x1 x2 : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x1)
    (Host.gather gather_S100000x64_S1600000x1_S1600000x64_1_0_n_n_0_1_164 x0
      (broadcastInDim S1600000x1 ![0] bcast_S1600000_S1600000x1_0
        (select (cmpi .slt x2 (broadcastInDim S1600000 ![] bcast_S_S1600000 (constantI S_ 32 0#32)))
          (addi x2 (broadcastInDim S1600000 ![] bcast_S_S1600000 (constantI S_ 32 100000#32))) x2)))

/-- The degrees: a one added into the entry of each edge's target node, starting from zeros. -/
def degree (x1 : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 x1)
    (broadcastInDim S1600000 ![] bcast_S_S1600000 (constant (F := Ideal) S_ .f32 0x3F800000#32))

/-- The region finds the neighbour sums of the launch arguments in the second window's array. -/
theorem V_summed (c : Dev nD) :
    (V m c main_v9 : S100000x64.Idx → EReal)
      = summed (m ((c : Thread nD τ).loc main_arg0)) (m ((c : Thread nD τ).loc main_arg1)) (m ((c : Thread nD τ).loc main_arg2)) := by
  dsimp only [Gen.V, Gen.hostOps0]
  after_results
  rfl

/-- The region finds the degrees of the launch arguments, as a column, in the third window's array. -/
theorem V_degcol (c : Dev nD) :
    (V m c main_v14 : S100000x1.Idx → EReal)
      = broadcastInDim S100000x1 ![0] bcast_S100000_S100000x1_0 (degree (m ((c : Thread nD τ).loc main_arg1))) := by
  dsimp only [Gen.V, Gen.hostOps0]
  after_results
  rfl

/-- The degree column read at row `p` is the degree of node `p`. -/
theorem degcol_apply (d : (⟨S100000, .f32⟩ : BufTy).Contents (Elt Ideal)) (j : S100000x1.Idx) :
    broadcastInDim S100000x1 ![0] bcast_S100000_S100000x1_0 d j = d (ix1 (j 0)) :=
  broadcastInDim_apply _ bcast_S100000_S100000x1_0 d j (ix1 (j 0)) (fun a => match a with
    | ⟨0, _⟩ => by show (j 0).val = if (100000 : Nat) = 1 then 0 else (j 0).val; rw [if_neg (by decide)])

/-! ## One grid point -/

/-- Row `y 0`'s one entry of a block's degree column. -/
abbrev blkCol (y : S10000x64.Idx) : S10000x1.Idx := ix2 (y 0) (0 : Fin 1)
/-- Row `i 0`'s one entry of the whole degree column. -/
abbrev colOf (i : S100000x64.Idx) : S100000x1.Idx := ix2 (i 0) (0 : Fin 1)

theorem zero_offsets : (![0, 0] : Fin 2 → Nat) = fun _ => 0 := funext fun a => by fin_cases a <;> rfl

/-- What the body leaves in the result block, from the three input blocks: entry `y` is the feature entry plus
    the neighbour sum over the floored degree of `y`'s row. -/
theorem block_eq (x0 x1 : Vec Ideal S10000x64 .f32) (x2 : Vec Ideal S10000x1 .f32) (y : S10000x64.Idx) :
    out0_3 x0 x1 x2 y = x0 y + Ideal.div (x1 y) (max (x2 (blkCol y)) one) := by
  unfold out0_3
  rw [canon3_eq]
  simp only [View.ld_unit_zero (S := S10000x64) zero_offsets, View.ld_unit_zero (S := S10000x1) zero_offsets]
  have e0 : ix3_0 y = y := by
    funext a; match a with | ⟨0, _⟩ => rfl | ⟨1, _⟩ => rfl
  have e1 : ix3_1 y = y := by
    funext a; match a with | ⟨0, _⟩ => rfl | ⟨1, _⟩ => rfl
  have e2 : ix3_2 y = blkCol y := by
    funext a; match a with | ⟨0, _⟩ => rfl | ⟨1, _⟩ => rfl
  show x0 (ix3_0 y) + Ideal.div (x1 (ix3_1 y)) (max (x2 (ix3_2 y)) (Ideal.ofBits .f32 0x3F800000#32)) = _
  rw [e0, e1, e2]
  rfl

/-- The printed index maps, decided over the ten points: every window sits at block `t` on the rows, the
    64-wide ones at block 0 on the columns, and the block index stays below ten. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem idx_onto : ∀ q : Fin 10, ∃ t : Fin cfg0.N, win0_3.index t = ![q.val, 0] :=
  (by decide +kernel : ∀ q : Fin 10, ∃ t : Fin grid0.N, win0_3.index t = ![q.val, 0])

/-- The dense step over three arbitrary arrays: features, neighbour sums, degree column. -/
def wholeOf (A0 A1 : FVec Ideal S100000x64 .f32) (A2 : FVec Ideal S100000x1 .f32) : FVec Ideal S100000x64 .f32 :=
  fun i => A0 i + Ideal.div (A1 i) (max (A2 (colOf i)) one)

/-- ONE GRID POINT, over arbitrary arrays: from the three windows' blocks of `A0`, `A1`, `A2` at point `t` the
    body leaves, at entry `j`, the dense step of the whole arrays at the `j`-th index of the result's block. All
    windows sit at row block `t`; the degree column's one entry of row `j 0` lies under the result's row. -/
theorem point_eq (A0 A1 : FVec Ideal S100000x64 .f32) (A2 : FVec Ideal S100000x1 .f32) (t : Fin cfg0.N) (j : S10000x64.Idx) :
    out0_3 (((cfg0.win 0).blk t).view.read (Elt Ideal) A0) (((cfg0.win 1).blk t).view.read (Elt Ideal) A1)
        (((cfg0.win 2).blk t).view.read (Elt Ideal) A2) j
      = wholeOf A0 A1 A2 (((cfg0.win 3).blk t).view.emb j) := by
  obtain ⟨e00, e01, e10, e11, e20, e21, e31, _⟩ := idx_facts t
  rw [block_eq]
  have hj0 : (j 0).val < 10000 := (j 0).isLt
  have hj1 : (j 1).val < 64 := (j 1).isLt
  have e0 : ((cfg0.win 0).blk t).view.emb j = ((cfg0.win 3).blk t).view.emb j := by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * (j 1).val = win0_3.index t (1 : Fin 2) * 64 + 1 * (j 1).val; omega
  have e1 : ((cfg0.win 1).blk t).view.emb j = ((cfg0.win 3).blk t).view.emb j := by
    funext a; apply Fin.ext
    match a with
    | ⟨0, _⟩ => show win0_1.index t (0 : Fin 2) * 10000 + 1 * (j 0).val = win0_3.index t (0 : Fin 2) * 10000 + 1 * (j 0).val; omega
    | ⟨1, _⟩ => show win0_1.index t (1 : Fin 2) * 64 + 1 * (j 1).val = win0_3.index t (1 : Fin 2) * 64 + 1 * (j 1).val; omega
  have e2 : ((cfg0.win 2).blk t).view.emb (blkCol j) = colOf (((cfg0.win 3).blk t).view.emb j) := by
    funext a; apply Fin.ext
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega
  show A0 (((cfg0.win 0).blk t).view.emb j)
      + Ideal.div (A1 (((cfg0.win 1).blk t).view.emb j)) (max (A2 (((cfg0.win 2).blk t).view.emb (blkCol j))) one)
    = wholeOf A0 A1 A2 (((cfg0.win 3).blk t).view.emb j)
  rw [e0, e1, e2]
  rfl

/-- The whole-array function the blocks are restrictions of: the dense step of the three arrays the windows
    stage, as the region finds them. -/
def whole (c : Dev nD) : FVec Ideal S100000x64 .f32 :=
  wholeOf (V m c (Pipeline.arrRef spec0 0)) (V m c (Pipeline.arrRef spec0 1)) (V m c (Pipeline.arrRef spec0 2))

/-- What point `t` writes back is block `t` of the whole-array function. -/
theorem flushed_eq (c : Dev nD) (t : Fin cfg0.N) :
    (dats m 0 c).flushed 3 t = ((cfg0.win 3).blk t).view.read (Elt Ideal) (whole m c) := by
  rw [flushed3]
  funext j
  show out0_3 (iblk m c 0 t) (iblk m c 1 t) (iblk m c 2 t) j = whole m c (((cfg0.win 3).blk t).view.emb j)
  unfold iblk whole
  exact point_eq (V m c (Pipeline.arrRef spec0 0)) (V m c (Pipeline.arrRef spec0 1)) (V m c (Pipeline.arrRef spec0 2)) t j

/-! ## The ten blocks tile the array -/

/-- An index is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v15).slice (win0_3.rect t)).set ↔ _
  rw [View.set_slice_whole, Rect.mem_set_unit]
  exact Iff.rfl

/-- Every index of the result lies in the block of the point its row selects. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-! ## The array after the run -/

/-- The first window's array is the features as launched. -/
theorem arr0_eq (c : Dev nD) :
    (V m c (Pipeline.arrRef spec0 0) : FVec Ideal S100000x64 .f32) = m ((c : Thread nD τ).loc main_arg0) := V_main_arg0 m c
/-- The second window's array holds the neighbour sums of the launch arguments. -/
theorem arr1_eq (c : Dev nD) :
    (V m c (Pipeline.arrRef spec0 1) : FVec Ideal S100000x64 .f32)
      = summed (m ((c : Thread nD τ).loc main_arg0)) (m ((c : Thread nD τ).loc main_arg1)) (m ((c : Thread nD τ).loc main_arg2)) :=
  V_summed m c
/-- The third window's array holds the degrees of the launch arguments, as a column. -/
theorem arr2_eq (c : Dev nD) :
    (V m c (Pipeline.arrRef spec0 2) : FVec Ideal S100000x1 .f32)
      = broadcastInDim S100000x1 ![0] bcast_S100000_S100000x1_0 (degree (m ((c : Thread nD τ).loc main_arg1))) :=
  V_degcol m c

/-- With the degrees laid out as a column, the dense step is the mean aggregation. -/
theorem wholeOf_column (A0 A1 : FVec Ideal S100000x64 .f32) (d : (⟨S100000, .f32⟩ : BufTy).Contents (Elt Ideal)) :
    wholeOf A0 A1 (broadcastInDim S100000x1 ![0] bcast_S100000_S100000x1_0 d) = meanAgg A0 A1 d := by
  funext i
  unfold wholeOf meanAgg
  rw [degcol_apply]

/-- The whole-array function over the region-entry arrays is the mean aggregation of the launch arguments'
    features, neighbour sums and degrees. -/
theorem whole_eq (c : Dev nD) :
    whole m c = meanAgg (m ((c : Thread nD τ).loc main_arg0))
      (summed (m ((c : Thread nD τ).loc main_arg0)) (m ((c : Thread nD τ).loc main_arg1)) (m ((c : Thread nD τ).loc main_arg2)))
      (degree (m ((c : Thread nD τ).loc main_arg1))) := by
  unfold whole
  rw [arr0_eq, arr1_eq, arr2_eq, wholeOf_column]

/-- The result array after the run. -/
theorem final (c : Dev nD) :
    (dats m 0 c).arrAt 3 cfg0.N = meanAgg (m ((c : Thread nD τ).loc main_arg0))
      (summed (m ((c : Thread nD τ).loc main_arg0)) (m ((c : Thread nD τ).loc main_arg1)) (m ((c : Thread nD τ).loc main_arg2)))
      (degree (m ((c : Thread nD τ).loc main_arg1))) :=
  ((dats m 0 c).arrAt_eq_of_cover 3 (whole m c) (fun t _ => flushed_eq m c t) cover).trans (whole_eq m c)

/-- Every weakly fair execution of the kernel's program ends with the result array at the mean aggregation of the
    launch arguments and the arguments unchanged. -/
theorem run : θ_run defs (onTc (τ := τ) (main (F := Ideal))) ⟨m, fun _ => 0, ρ⟩ fun r => ∀ c : Dev nD,
      r.2.mem ((c : Thread nD τ).loc main_v15) = meanAgg (m ((c : Thread nD τ).loc main_arg0))
        (summed (m ((c : Thread nD τ).loc main_arg0)) (m ((c : Thread nD τ).loc main_arg1)) (m ((c : Thread nD τ).loc main_arg2)))
        (degree (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Agg

end
-- ==== Proof.SamePrefix.lean ====
/-
  The two programs compute the neighbour sums and the degrees by the same host operations: the same gather of
  feature rows at the (wrapped) source nodes, the same scatter-add by target node into zeros, the same scatter-add
  of ones. Each program states those operations over its own copy of the dimension records, whose fields are
  equal, so the kernel side's arrays and the reference side's stages are the same functions of the arguments.
-/
import proofs.«138248_j79070347919847_1_alg».proof.Proof.KernelSide
import proofs.«138248_j79070347919847_1_alg».proof.Proof.RefSide

noncomputable section

namespace Cert.SamePrefix

open Idealize.ShloMosaic

/-- The reference's neighbour-sum stage is the kernel side's array. -/
theorem summed_eq (x0 : (⟨Cert.KernelIdeal.S100000x64, .f32⟩ : BufTy).Contents (Elt Ideal))
    (x1 x2 : (⟨Cert.KernelIdeal.S1600000, .i32⟩ : BufTy).Contents (Elt Ideal)) :
    Cert.ReferenceIdeal.Read.val_main_v9 (F := Ideal) x0 x1 x2 = Cert.KernelIdeal.Agg.summed x0 x1 x2 := rfl

/-- The reference's degree stage is the kernel side's vector. -/
theorem degree_eq (x1 : (⟨Cert.KernelIdeal.S1600000, .i32⟩ : BufTy).Contents (Elt Ideal)) :
    Cert.ReferenceIdeal.Read.val_main_v13 (F := Ideal) x1 = Cert.KernelIdeal.Agg.degree x1 := rfl

end Cert.SamePrefix

end
-- ==== Proof.lean ====
/-
  Mean aggregation over a graph with a residual, kernel against reference.

  Both programs gather the feature rows at the edges' source nodes, add them into the row of each edge's target
  node (the neighbour sums) and count the edges per target node (the degrees), by the same host operations. They
  differ only in where the dense last step runs: the kernel floors the degree at one, divides and adds the
  features inside a ten-point grid over blocks of 10000 rows; the reference does it on the whole arrays, with
  the floor's two arguments in the other order and the degree column repeated over the features first.

  On the extended reals both results are, at node p and feature q,
      feat(p, q) + summed(p, q) / max(deg(p), 1),
  the quotient the ideal instance's division on both sides and the maximum symmetric; no entry need be finite.
  The kernel side reads that function off the grid run block by block (the ten blocks tile the rows), the
  reference side off its stages one operation at a time, and the two host prefixes are identified term by term.
  The frames are the generated ones; the kernel's idealization rewrote nothing.
-/
import proofs.«138248_j79070347919847_1_alg».proof.Defs
import proofs.«138248_j79070347919847_1_alg».proof.Proof.Gen.Kernel
import proofs.«138248_j79070347919847_1_alg».proof.Proof.Gen.Kernel.Skeleton
import proofs.«138248_j79070347919847_1_alg».proof.Proof.Gen.Kernel.Launch
import proofs.«138248_j79070347919847_1_alg».proof.Proof.Gen.Kernel.Points
import proofs.«138248_j79070347919847_1_alg».proof.Proof.Gen.Kernel.Frame
import proofs.«138248_j79070347919847_1_alg».proof.Proof.Gen.KernelIdeal
import proofs.«138248_j79070347919847_1_alg».proof.Proof.Gen.KernelIdeal.Skeleton
import proofs.«138248_j79070347919847_1_alg».proof.Proof.Gen.KernelIdeal.Launch
import proofs.«138248_j79070347919847_1_alg».proof.Proof.Gen.KernelIdeal.Points
import proofs.«138248_j79070347919847_1_alg».proof.Proof.Gen.KernelIdeal.Frame
import proofs.«138248_j79070347919847_1_alg».proof.Proof.Gen.ReferenceIdeal
import proofs.«138248_j79070347919847_1_alg».proof.Proof.Gen.Pre_finite_inputs
import proofs.«138248_j79070347919847_1_alg».proof.Proof.Gen.KernelIdeal.Value
import proofs.«138248_j79070347919847_1_alg».proof.Proof.Gen.ReferenceIdeal.Run
import proofs.«138248_j79070347919847_1_alg».proof.Proof.Gen.ReferenceIdeal.Read
import proofs.«138248_j79070347919847_1_alg».proof.Proof.MeanAgg
import proofs.«138248_j79070347919847_1_alg».proof.Proof.RefSide
import proofs.«138248_j79070347919847_1_alg».proof.Proof.KernelSide
import proofs.«138248_j79070347919847_1_alg».proof.Proof.SamePrefix
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the features and the two edge lists, the kernel's result array and the
    reference's are the mean aggregation of the same three arrays. -/
theorem algebraic : Cert.algebraic_KernelIdeal_ReferenceIdeal := by
  intro m ρ m' ρ' _ hagree
  refine ⟨_, Cert.KernelIdeal.Agg.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v18_eq _ _ _).trans ((Cert.ReferenceIdeal.RefValue.result_eq _ _ _).trans ?_)
  rw [Cert.SamePrefix.summed_eq, Cert.SamePrefix.degree_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
